-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x40 : Shape := ⟨2, ![100000, 40]⟩
abbrev S2000x40 : Shape := ⟨2, ![2000, 40]⟩
abbrev S3300000x40 : Shape := ⟨2, ![3300000, 40]⟩
abbrev S1x40 : Shape := ⟨2, ![1, 40]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x40, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x1, .f32⟩
  | .hbm, ⟨76, _⟩ => ⟨S3300000x40, .f32⟩
  | .hbm, ⟨77, _⟩ => ⟨S3300000x40, .f32⟩
  | .hbm, ⟨78, _⟩ => ⟨S_, .f32⟩
  | .hbm, ⟨79, _⟩ => ⟨S100000x40, .f32⟩
  | .hbm, ⟨80, _⟩ => ⟨S3300000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x40_S2000x40_1_0_0_1_n_n_wf : DotDims.WF S2000x16 S16x40 S2000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S100000x40.size a
  hwx3_2 : ∀ i : grid3.Coords, EltTy.bits .f32 = 32 ∨ (Rect.block (s := S100000x40) S2000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩

abbrev nBuf : Space → Nat
  | .hbm => 129
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x512, .f32⟩

abbrev hbmTy0_1 (i : Nat) : BufTy := match i % 128 with
  | 0 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.RegionMatmul.lean ====
/-
  The two matrix-product regions, read as whole arrays at the ideal values.

  Each region cuts its left operand into 50 blocks of 2000 rows, multiplies every block by the whole right
  operand into a zero accumulator, and writes the 2000 product rows back to the same rows of the result. A change
  of float format is the identity at the ideal values, so row `p`, column `q` of a block's product is the sum over
  `k` of left(p, k) * right(k, q), and the blocks tile the result: the result array after the region is the plain
  product of the two operand arrays as the region finds them.

  The argument, the same for both regions. (1) One block's product at (p, q) is that sum. (2) At grid point `t` the
  left block is block row `t` of its array, so its entry (p, k) is the array's entry (2000·t + p, k); the right
  block is the whole right array; the result block is block row `t` of the result. (3) Hence what point `t` writes
  back, at (p, q), is the sum over `k` of left(2000·t + p, k) * right(k, q): entry (2000·t + p, q) of the product of
  the arrays, that is, block `t` of that product. (4) Row `r` of the result lies in the block of point `r / 2000`,
  so every entry is written, and an array all of whose entries are written by blocks of one function is that function.
-/
import proofs.«124729_j309237645923_1_alg».proof.Proof.Gen.KernelIdeal.Frame
import proofs.«124729_j309237645923_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/- The buffer contents a region is entered with: any, the statements below hold for all of them. -/
variable (V : (c : Dev nD) → (b : Ref sig .tc) → Buf (Elt Ideal) ((c : Thread nD τ).loc b))

/-- The zero offsets of a whole-block access, as the constant function. -/
theorem matmul_zero_offsets : (![0, 0] : Fin 2 → Nat) = fun _ => 0 := funext fun a => by fin_cases a <;> rfl

/-! ## Region 0: [100000, 512] × [512, 16] -/

/-- One block's product at row `p`, column `q`: a change of float format is the identity at the ideal values, so the
    entry is the sum over `k` of left (p, k) · right (k, q). -/
theorem block_product0 (x0 : Vec Ideal S2000x512 .f32) (x1 : Vec Ideal S512x16 .f32) (p : Fin 2000) (q : Fin 16) :
    (k0_pay1 (F := Ideal) x0 x1 : FVec Ideal S2000x16 .f32) (ix2 p q) = ∑ k : Fin 512, x0 (ix2 p k) * x1 (ix2 k q) := by
  unfold k0_pay1
  exact Cert.PlainDot.matmul_zero_apply dot_S2000x512_S512x16_S2000x16_1_0_0_1_n_n rfl none _ _ p q

/-- Where the blocks lie, decided over the 50 grid points: the left operand's and the result's block at point `t` is
    block row `t`, block column 0; the right operand's block is always block (0, 0). -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand, the right operand and their product, as arrays of their literal shapes. -/
abbrev left0 (c : Dev nD) : FVec Ideal S100000x512 .f32 := V c main_arg0
abbrev right0 (c : Dev nD) : FVec Ideal S512x16 .f32 := V c main_arg2
abbrev product0 (c : Dev nD) : FVec Ideal S100000x16 .f32 :=
  Host.dotGeneral (F := Ideal) (φ₁ := .f32) (φ₂ := .f32) (DotDims.plain 100000 512 16) none (left0 V c) (right0 V c)

/-- A block of `n`-th 2000 rows of a left operand `A`, times the whole right operand `B`, at the block's entry `j`,
    is the whole product's entry at row 2000·n + (row of `j`), same column. -/
theorem block_entry0 (x0 : Vec Ideal S2000x512 .f32) (x1 : Vec Ideal S512x16 .f32)
    (A : FVec Ideal S100000x512 .f32) (B : FVec Ideal S512x16 .f32) (j : S2000x16.Idx) (i : S100000x16.Idx) (n : ℕ)
    (hi0 : (i 0).val = 2000 * n + (j 0).val) (hi1 : (i 1).val = (j 1).val)
    (h0 : ∀ (y : S2000x512.Idx) (z : S100000x512.Idx), (z 0).val = 2000 * n + (y 0).val → (z 1).val = (y 1).val → x0 y = A z)
    (h1 : ∀ y : S512x16.Idx, x1 y = B y) :
    (k0_pay1 (F := Ideal) x0 x1 : FVec Ideal S2000x16 .f32) j
      = Host.dotGeneral (F := Ideal) (φ₁ := .f32) (φ₂ := .f32) (DotDims.plain 100000 512 16) none A B i := by
  obtain ⟨p, q, rfl⟩ : ∃ (p : Fin 2000) (q : Fin 16), j = ix2 p q := ⟨j 0, j 1, eq_ix2 j⟩
  obtain ⟨r, s, rfl⟩ : ∃ (r : Fin 100000) (s : Fin 16), i = ix2 r s := ⟨i 0, i 1, eq_ix2 i⟩
  have hs : s = q := Fin.ext hi1
  subst hs
  rw [block_product0, Cert.PlainDot.dotGeneral_apply _ rfl]
  refine Finset.sum_congr rfl fun k _ => ?_
  rw [h0 (ix2 p k) (ix2 r k) hi0 rfl, h1]

/-- The left operand's block at point `t` holds rows 2000·t … 2000·t + 1999 of the array, all 512 columns. -/
theorem left_block0 (c : Dev nD) (t : Fin cfg0.N) (y : S2000x512.Idx) (z : S100000x512.Idx)
    (hz0 : (z 0).val = 2000 * t.val + (y 0).val) (hz1 : (z 1).val = (y 1).val) :
    (iblk0 (F := Ideal) V c 0 t : Vec Ideal S2000x512 .f32) y = left0 V c z := by
  obtain ⟨e0, e1, -, -, -, -⟩ := block_index0 t
  unfold iblk0
  rw [View.read_apply]
  show left0 V c _ = left0 V c z
  refine congrArg (left0 V c) ?_
  funext a
  apply Fin.ext
  match a with
  | ⟨0, _⟩ => show win0_0.index t (0 : Fin 2) * 2000 + 1 * (y 0).val = (z 0).val; rw [e0, hz0]; omega
  | ⟨1, _⟩ => show win0_0.index t (1 : Fin 2) * 512 + 1 * (y 1).val = (z 1).val; rw [e1, hz1]; omega

/-- The right operand's block at every point is the whole array. -/
theorem right_block0 (c : Dev nD) (t : Fin cfg0.N) (y : S512x16.Idx) :
    (iblk0 (F := Ideal) V c 1 t : Vec Ideal S512x16 .f32) y = right0 V c y := by
  obtain ⟨-, -, e2, e3, -, -⟩ := block_index0 t
  unfold iblk0
  rw [View.read_apply]
  show right0 V c _ = right0 V c y
  refine congrArg (right0 V c) ?_
  funext a
  apply Fin.ext
  match a with
  | ⟨0, _⟩ => show win0_1.index t (0 : Fin 2) * 512 + 1 * (y 0).val = (y 0).val; rw [e2]; omega
  | ⟨1, _⟩ => show win0_1.index t (1 : Fin 2) * 16 + 1 * (y 1).val = (y 1).val; rw [e3]; omega

/-- What point `t` writes back is block `t` of the product of the two arrays. -/
theorem flushed0 (c : Dev nD) (t : Fin cfg0.N) :
    (dat0 (F := Ideal) V c).flushed 2 t = ((cfg0.win 2).blk t).view.read (Elt Ideal) (product0 V c) := by
  show (cfg0.win 2).cut (grid0.coords t) ((dat0 V c).after 2 t) = _
  rw [after0_2]
  unfold out0_2
  rw [View.canon_unit_zero matmul_zero_offsets]
  simp only [View.ld_unit_zero (S := S2000x512) matmul_zero_offsets, View.ld_unit_zero (S := S512x16) matmul_zero_offsets]
  obtain ⟨-, -, -, -, e4, e5⟩ := block_index0 t
  funext j
  show (k0_pay1 (F := Ideal) (iblk0 V c 0 t) (iblk0 V c 1 t) : FVec Ideal S2000x16 .f32) j
    = product0 V c (((cfg0.win 2).blk t).view.emb j)
  refine block_entry0 _ _ (left0 V c) (right0 V c) j _ t.val ?_ ?_
    (fun y z h0 h1 => left_block0 V c t y z h0 h1) (fun y => right_block0 V c t y)
  · show win0_2.index t (0 : Fin 2) * 2000 + 1 * (j 0).val = _; rw [e4]; omega
  · show win0_2.index t (1 : Fin 2) * 16 + 1 * (j 1).val = _; rw [e5]; omega

/-- An index of the result lies in point `t`'s block iff each coordinate is in the block's range on its axis. -/
theorem mem_block0 (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v30).slice (win0_2.rect t)).set ↔ _
  rw [View.set_slice_whole, Rect.mem_set_unit]
  exact Iff.rfl

/-- Every entry of the result is written: row `r` lies in the block of point `r / 2000`. -/
theorem covered0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, e4, e5⟩ := block_index0 t
  refine ⟨t, flush0_2 t, ?_⟩
  rw [mem_block0]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 16 ≤ (i 1).val ∧ (i 1).val < win0_2.index t (1 : Fin 2) * 16 + 16
    rw [e5]; omega

/-- Region 0: the array `main_v30` after the region is the product of `main_arg0` [100000, 512] and `main_arg2` [512, 16]. -/
theorem region0 (c : Dev nD) :
    ((dat0 (F := Ideal) V c).arrAt 2 cfg0.N : FVec Ideal S100000x16 .f32)
      = Host.dotGeneral (F := Ideal) (φ₁ := .f32) (φ₂ := .f32) (DotDims.plain 100000 512 16) none (V c main_arg0 : FVec Ideal S100000x512 .f32) (V c main_arg2 : FVec Ideal S512x16 .f32) :=
  (dat0 (F := Ideal) V c).arrAt_eq_of_cover 2 (product0 V c) (fun t _ => flushed0 V c t) covered0

/-! ## Region 2: [100000, 16] × [16, 40] -/

/-- One block's product at row `p`, column `q`: the cast of the left block's shape to itself changes nothing, a change of
    float format is the identity at the ideal values, so the entry is the sum over `k` of left (p, k) · right (k, q). -/
theorem block_product2 (x0 : Vec Ideal S2000x16 .f32) (x1 : Vec Ideal S16x40 .f32) (p : Fin 2000) (q : Fin 40) :
    (k2_pay1 (F := Ideal) x0 x1 : FVec Ideal S2000x40 .f32) (ix2 p q) = ∑ k : Fin 16, x0 (ix2 p k) * x1 (ix2 k q) := by
  unfold k2_pay1
  rw [shapeCast_self]
  exact Cert.PlainDot.matmul_zero_apply dot_S2000x16_S16x40_S2000x40_1_0_0_1_n_n rfl none _ _ p q

/-- Where the blocks lie, decided over the 50 grid points: the left operand's and the result's block at point `t` is
    block row `t`, block column 0; the right operand's block is always block (0, 0). -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand, the right operand and their product, as arrays of their literal shapes. -/
abbrev left2 (c : Dev nD) : FVec Ideal S100000x16 .f32 := V c main_v45
abbrev right2 (c : Dev nD) : FVec Ideal S16x40 .f32 := V c main_arg4
abbrev product2 (c : Dev nD) : FVec Ideal S100000x40 .f32 :=
  Host.dotGeneral (F := Ideal) (φ₁ := .f32) (φ₂ := .f32) (DotDims.plain 100000 16 40) none (left2 V c) (right2 V c)

/-- The `n`-th block of 2000 rows of a left operand `A`, times the whole right operand `B`, at the block's entry `j`,
    is the whole product's entry at row 2000·n + (row of `j`), same column. -/
theorem block_entry2 (x0 : Vec Ideal S2000x16 .f32) (x1 : Vec Ideal S16x40 .f32)
    (A : FVec Ideal S100000x16 .f32) (B : FVec Ideal S16x40 .f32) (j : S2000x40.Idx) (i : S100000x40.Idx) (n : ℕ)
    (hi0 : (i 0).val = 2000 * n + (j 0).val) (hi1 : (i 1).val = (j 1).val)
    (h0 : ∀ (y : S2000x16.Idx) (z : S100000x16.Idx), (z 0).val = 2000 * n + (y 0).val → (z 1).val = (y 1).val → x0 y = A z)
    (h1 : ∀ y : S16x40.Idx, x1 y = B y) :
    (k2_pay1 (F := Ideal) x0 x1 : FVec Ideal S2000x40 .f32) j
      = Host.dotGeneral (F := Ideal) (φ₁ := .f32) (φ₂ := .f32) (DotDims.plain 100000 16 40) none A B i := by
  obtain ⟨p, q, rfl⟩ : ∃ (p : Fin 2000) (q : Fin 40), j = ix2 p q := ⟨j 0, j 1, eq_ix2 j⟩
  obtain ⟨r, s, rfl⟩ : ∃ (r : Fin 100000) (s : Fin 40), i = ix2 r s := ⟨i 0, i 1, eq_ix2 i⟩
  have hs : s = q := Fin.ext hi1
  subst hs
  rw [block_product2, Cert.PlainDot.dotGeneral_apply _ rfl]
  refine Finset.sum_congr rfl fun k _ => ?_
  rw [h0 (ix2 p k) (ix2 r k) hi0 rfl, h1]

/-- The left operand's block at point `t` holds rows 2000·t … 2000·t + 1999 of the array, all 16 columns. -/
theorem left_block2 (c : Dev nD) (t : Fin cfg2.N) (y : S2000x16.Idx) (z : S100000x16.Idx)
    (hz0 : (z 0).val = 2000 * t.val + (y 0).val) (hz1 : (z 1).val = (y 1).val) :
    (iblk2 (F := Ideal) V c 0 t : Vec Ideal S2000x16 .f32) y = left2 V c z := by
  obtain ⟨e0, e1, -, -, -, -⟩ := block_index2 t
  unfold iblk2
  rw [View.read_apply]
  show left2 V c _ = left2 V c z
  refine congrArg (left2 V c) ?_
  funext a
  apply Fin.ext
  match a with
  | ⟨0, _⟩ => show win2_0.index t (0 : Fin 2) * 2000 + 1 * (y 0).val = (z 0).val; rw [e0, hz0]; omega
  | ⟨1, _⟩ => show win2_0.index t (1 : Fin 2) * 16 + 1 * (y 1).val = (z 1).val; rw [e1, hz1]; omega

/-- The right operand's block at every point is the whole array. -/
theorem right_block2 (c : Dev nD) (t : Fin cfg2.N) (y : S16x40.Idx) :
    (iblk2 (F := Ideal) V c 1 t : Vec Ideal S16x40 .f32) y = right2 V c y := by
  obtain ⟨-, -, e2, e3, -, -⟩ := block_index2 t
  unfold iblk2
  rw [View.read_apply]
  show right2 V c _ = right2 V c y
  refine congrArg (right2 V c) ?_
  funext a
  apply Fin.ext
  match a with
  | ⟨0, _⟩ => show win2_1.index t (0 : Fin 2) * 16 + 1 * (y 0).val = (y 0).val; rw [e2]; omega
  | ⟨1, _⟩ => show win2_1.index t (1 : Fin 2) * 40 + 1 * (y 1).val = (y 1).val; rw [e3]; omega

/-- What point `t` writes back is block `t` of the product of the two arrays. -/
theorem flushed2 (c : Dev nD) (t : Fin cfg2.N) :
    (dat2 (F := Ideal) V c).flushed 2 t = ((cfg2.win 2).blk t).view.read (Elt Ideal) (product2 V c) := by
  show (cfg2.win 2).cut (grid2.coords t) ((dat2 V c).after 2 t) = _
  rw [after2_2]
  unfold out2_2
  rw [View.canon_unit_zero matmul_zero_offsets]
  simp only [View.ld_unit_zero (S := S2000x16) matmul_zero_offsets, View.ld_unit_zero (S := S16x40) matmul_zero_offsets]
  obtain ⟨-, -, -, -, e4, e5⟩ := block_index2 t
  funext j
  show (k2_pay1 (F := Ideal) (iblk2 V c 0 t) (iblk2 V c 1 t) : FVec Ideal S2000x40 .f32) j
    = product2 V c (((cfg2.win 2).blk t).view.emb j)
  refine block_entry2 _ _ (left2 V c) (right2 V c) j _ t.val ?_ ?_
    (fun y z h0 h1 => left_block2 V c t y z h0 h1) (fun y => right_block2 V c t y)
  · show win2_2.index t (0 : Fin 2) * 2000 + 1 * (j 0).val = _; rw [e4]; omega
  · show win2_2.index t (1 : Fin 2) * 40 + 1 * (j 1).val = _; rw [e5]; omega

/-- An index of the result lies in point `t`'s block iff each coordinate is in the block's range on its axis. -/
theorem mem_block2 (t : Fin cfg2.N) (i : S100000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v46).slice (win2_2.rect t)).set ↔ _
  rw [View.set_slice_whole, Rect.mem_set_unit]
  exact Iff.rfl

/-- Every entry of the result is written: row `r` lies in the block of point `r / 2000`. -/
theorem covered2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ : ∃ t : Fin cfg2.N, t.val = (i 0).val / 2000 :=
    ⟨⟨(i 0).val / 2000, by rw [show cfg2.N = 50 from N_2]; omega⟩, rfl⟩
  obtain ⟨-, -, -, -, e4, e5⟩ := block_index2 t
  refine ⟨t, flush2_2 t, ?_⟩
  rw [mem_block2]
  intro a
  match a with
  | ⟨0, _⟩ =>
    show win2_2.index t (0 : Fin 2) * 2000 ≤ (i 0).val ∧ (i 0).val < win2_2.index t (0 : Fin 2) * 2000 + 2000
    rw [e4, ht]; omega
  | ⟨1, _⟩ =>
    show win2_2.index t (1 : Fin 2) * 40 ≤ (i 1).val ∧ (i 1).val < win2_2.index t (1 : Fin 2) * 40 + 40
    rw [e5]; omega

/-- Region 2: the array `main_v46` after the region is the product of `main_v45` [100000, 16] and `main_arg4` [16, 40]. -/
theorem region2 (c : Dev nD) :
    ((dat2 (F := Ideal) V c).arrAt 2 cfg2.N : FVec Ideal S100000x40 .f32)
      = Host.dotGeneral (F := Ideal) (φ₁ := .f32) (φ₂ := .f32) (DotDims.plain 100000 16 40) none (V c main_v45 : FVec Ideal S100000x16 .f32) (V c main_arg4 : FVec Ideal S16x40 .f32) :=
  (dat2 (F := Ideal) V c).arrAt_eq_of_cover 2 (product2 V c) (fun t _ => flushed2 V c t) covered2

end Cert.KernelIdeal.RegionValue

end
-- ==== Proof.RegionBias.lean ====
/-
  The two bias regions, read as whole arrays at the ideal values.

  Each region cuts its first operand into 50 blocks of 2000 rows, adds the one bias row to every row of the block
  (in region 1 then replacing negative entries by 0) and writes the rows back to the same rows of the result. The
  blocks tile the result, so the result array after the region is the first operand array plus the bias row
  repeated down the rows (in region 1: the larger of that and 0), entry by entry.

  The route, for each region: entry (p, q) of what the body computes from a block and the bias row; where block t
  of each window sits in its array (block row t for the operand and for the result, the one and only block for the
  bias row); hence what grid point t writes back is rows 2000 t … 2000 t + 1999 of the whole-array expression; and
  row r lies in block r / 2000, so the blocks written back cover the result.
-/
import proofs.«124729_j309237645923_1_alg».proof.Proof.Gen.KernelIdeal.Frame
import proofs.«124729_j309237645923_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/- The buffer contents a region is entered with: any, the statements below hold for all of them. -/
variable (V : (c : Dev nD) → (b : Ref sig .tc) → Buf (Elt Ideal) ((c : Thread nD τ).loc b))

/-- The whole-buffer rectangle's offsets, written out, are zero on both axes. -/
theorem bias_zero_offsets : (![0, 0] : Fin 2 → Nat) = fun _ => 0 := funext fun a => by fin_cases a <;> rfl

/-! ## Region 3: a block plus the bias row -/

/-- Entry (p, q) of what the body computes from a block of 2000 rows and the bias row: the block's entry plus the
    row's entry in column q. -/
theorem biasAdd3_apply (x0 : Vec Ideal S2000x40 .f32) (x1 : Vec Ideal S1x40 .f32) (p : Fin 2000) (q : Fin 40) :
    (k3_pay1 (F := Ideal) x0 x1 : FVec Ideal S2000x40 .f32) (ix2 p q) = x0 (ix2 p q) + x1 (ix2 (0 : Fin 1) q) := by
  unfold k3_pay1
  rw [addf_apply, shapeCast_self, shapeCast_self]
  rw [broadcastTo_apply x1 broadcasts_S1x40_S2000x40 (ix2 p q) (ix2 (0 : Fin 1) q) ?_]
  intro a
  match a with
  | ⟨0, _⟩ => rfl
  | ⟨1, _⟩ => rfl

/-- If the block's row p is row r of the array `A` and the block's bias row is the array `B`, the body's entry
    (p, q) is entry (r, q) of `A` plus `B` repeated down the rows. -/
theorem biasAdd3_point (A : FVec Ideal S100000x40 .f32) (B : FVec Ideal S1x40 .f32)
    (hb : S1x40.BroadcastsInDim S100000x40 (![0, 1] : Fin 2 → Fin S100000x40.rank))
    (x0 : Vec Ideal S2000x40 .f32) (x1 : Vec Ideal S1x40 .f32) (p : Fin 2000) (q : Fin 40) (r : Fin 100000)
    (h0 : x0 (ix2 p q) = A (ix2 r q)) (h1 : x1 (ix2 (0 : Fin 1) q) = B (ix2 (0 : Fin 1) q)) :
    (k3_pay1 (F := Ideal) x0 x1 : FVec Ideal S2000x40 .f32) (ix2 p q)
      = addf (F := Ideal) (φ := .f32) A (broadcastInDim S100000x40 ![0, 1] hb B) (ix2 r q) := by
  rw [biasAdd3_apply, addf_apply, h0, h1, broadcastInDim_apply ![0, 1] hb B (ix2 r q) (ix2 (0 : Fin 1) q) ?_]
  intro a
  match a with
  | ⟨0, _⟩ => rfl
  | ⟨1, _⟩ => rfl

/-- Where the three windows sit at grid point t: the operand's and the result's block is block row t, block column
    0; the bias row's block is always block (0, 0). -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is rows 2000 t … 2000 t + 1999 of the operand plus the repeated bias row. -/
theorem flushed3 (c : Dev nD) (hb : S1x40.BroadcastsInDim S100000x40 (![0, 1] : Fin 2 → Fin S100000x40.rank)) (t : Fin cfg3.N) :
    (dat3 (F := Ideal) V c).flushed 2 t = ((cfg3.win 2).blk t).view.read (Elt Ideal)
      (addf (F := Ideal) (φ := .f32) (V c main_v59 : FVec Ideal S100000x40 .f32) (broadcastInDim S100000x40 ![0, 1] hb (V c main_v60 : FVec Ideal S1x40 .f32))) := by
  show (cfg3.win 2).cut (grid3.coords t) ((dat3 V c).after 2 t) = _
  rw [after3_2]
  unfold out3_2
  rw [View.canon_unit_zero bias_zero_offsets]
  simp only [View.ld_unit_zero (S := S2000x40) bias_zero_offsets, View.ld_unit_zero (S := S1x40) bias_zero_offsets]
  obtain ⟨e00, e01, e10, e11, e20, e21⟩ := blockIdx3 t
  have ht : t.val < 50 := lt_of_lt_of_eq t.isLt N_3
  refine funext fun (j : S2000x40.Idx) => ?_
  obtain ⟨p, q, rfl⟩ : ∃ (p : Fin 2000) (q : Fin 40), j = ix2 p q := ⟨j 0, j 1, eq_ix2 j⟩
  have hp : p.val < 2000 := p.isLt
  have hout : ((cfg3.win 2).blk t).view.emb (ix2 p q) = (ix2 (⟨t.val * 2000 + p.val, by omega⟩ : Fin 100000) q : S100000x40.Idx) := by
    funext a; apply Fin.ext
    match a with
    | ⟨0, _⟩ => show win3_2.index t (0 : Fin 2) * 2000 + 1 * p.val = t.val * 2000 + p.val; omega
    | ⟨1, _⟩ => show win3_2.index t (1 : Fin 2) * 40 + 1 * q.val = q.val; omega
  have hin : ((cfg3.win 0).blk t).view.emb (ix2 p q) = (ix2 (⟨t.val * 2000 + p.val, by omega⟩ : Fin 100000) q : S100000x40.Idx) := by
    funext a; apply Fin.ext
    match a with
    | ⟨0, _⟩ => show win3_0.index t (0 : Fin 2) * 2000 + 1 * p.val = t.val * 2000 + p.val; omega
    | ⟨1, _⟩ => show win3_0.index t (1 : Fin 2) * 40 + 1 * q.val = q.val; omega
  have hrow : ((cfg3.win 1).blk t).view.emb (ix2 (0 : Fin 1) q) = (ix2 (0 : Fin 1) q : S1x40.Idx) := by
    funext a; apply Fin.ext
    match a with
    | ⟨0, _⟩ => show win3_1.index t (0 : Fin 2) * 1 + 1 * 0 = 0; omega
    | ⟨1, _⟩ => show win3_1.index t (1 : Fin 2) * 40 + 1 * q.val = q.val; omega
  show (k3_pay1 (F := Ideal) (iblk3 V c 0 t) (iblk3 V c 1 t) : FVec Ideal S2000x40 .f32) (ix2 p q)
    = (addf (F := Ideal) (φ := .f32) (V c main_v59 : FVec Ideal S100000x40 .f32) (broadcastInDim S100000x40 ![0, 1] hb (V c main_v60 : FVec Ideal S1x40 .f32)))
        (((cfg3.win 2).blk t).view.emb (ix2 p q))
  rw [hout]
  refine biasAdd3_point _ _ hb (iblk3 V c 0 t) (iblk3 V c 1 t) p q _ ?_ ?_
  · show V c main_v59 (((cfg3.win 0).blk t).view.emb (ix2 p q)) = _
    rw [hin]
  · show V c main_v60 (((cfg3.win 1).blk t).view.emb (ix2 (0 : Fin 1) q)) = _
    rw [hrow]

/-- An entry of the result lies in grid point t's block exactly when its row and column lie in the block's ranges. -/
theorem mem_block3 (t : Fin cfg3.N) (i : S100000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v61).slice (win3_2.rect t)).set ↔ _
  rw [View.set_slice_whole, Rect.mem_set_unit]
  exact Iff.rfl

/-- Every entry of the result is written: row r lies in the block of grid point r / 2000. -/
theorem cover3 (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ : ∃ t : Fin cfg3.N, t.val = (i 0).val / 2000 :=
    ⟨⟨(i 0).val / 2000, lt_of_lt_of_eq (show (i 0).val / 2000 < 50 by omega) N_3.symm⟩, rfl⟩
  obtain ⟨-, -, -, -, e20, e21⟩ := blockIdx3 t
  refine ⟨t, flush3_2 t, ?_⟩
  rw [mem_block3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 40 ≤ (i 1).val ∧ (i 1).val < win3_2.index t (1 : Fin 2) * 40 + 40; omega

/-! ## Region 1: the larger of a block plus the bias row and 0 -/

/-- Entry (p, q) of what the body computes from a block of 2000 rows and the bias row: the larger of the block's
    entry plus the row's entry in column q, and 0. -/
theorem biasRelu1_apply (x0 : Vec Ideal S2000x16 .f32) (x1 : Vec Ideal S1x16 .f32) (p : Fin 2000) (q : Fin 16) :
    (k1_pay1 (F := Ideal) x0 x1 : FVec Ideal S2000x16 .f32) (ix2 p q)
      = max (x0 (ix2 p q) + x1 (ix2 (0 : Fin 1) q)) (Ideal.ofBits .f32 0x00000000#32) := by
  have hrow : broadcastTo S2000x16 x1 broadcasts_S1x16_S2000x16 (ix2 p q) = x1 (ix2 (0 : Fin 1) q) :=
    broadcastTo_apply x1 broadcasts_S1x16_S2000x16 (ix2 p q) (ix2 (0 : Fin 1) q)
      (fun a => by match a with | ⟨0, _⟩ => rfl | ⟨1, _⟩ => rfl)
  unfold k1_pay1
  rw [maximumf_apply, addf_apply, shapeCast_self, shapeCast_self, hrow]
  rfl

/-- If the block's row p is row r of the array `A` and the block's bias row is the array `B`, the body's entry
    (p, q) is entry (r, q) of the larger of `A` plus `B` repeated down the rows, and the all-zero array. -/
theorem biasRelu1_point (A : FVec Ideal S100000x16 .f32) (B : FVec Ideal S1x16 .f32)
    (hb : S1x16.BroadcastsInDim S100000x16 (![0, 1] : Fin 2 → Fin S100000x16.rank))
    (x0 : Vec Ideal S2000x16 .f32) (x1 : Vec Ideal S1x16 .f32) (p : Fin 2000) (q : Fin 16) (r : Fin 100000)
    (h0 : x0 (ix2 p q) = A (ix2 r q)) (h1 : x1 (ix2 (0 : Fin 1) q) = B (ix2 (0 : Fin 1) q)) :
    (k1_pay1 (F := Ideal) x0 x1 : FVec Ideal S2000x16 .f32) (ix2 p q)
      = maximumf (F := Ideal) (addf (F := Ideal) A (broadcastInDim S100000x16 ![0, 1] hb B))
          (broadcastInDim S100000x16 ![] bcast_S_S100000x16 (constant (F := Ideal) S_ .f32 0x00000000#32)) (ix2 r q) := by
  have hrow : broadcastInDim S100000x16 ![0, 1] hb B (ix2 r q) = B (ix2 (0 : Fin 1) q) :=
    broadcastInDim_apply ![0, 1] hb B (ix2 r q) (ix2 (0 : Fin 1) q)
      (fun a => by match a with | ⟨0, _⟩ => rfl | ⟨1, _⟩ => rfl)
  have hzero : broadcastInDim S100000x16 ![] bcast_S_S100000x16 (constant (F := Ideal) S_ .f32 0x00000000#32) (ix2 r q)
      = Ideal.ofBits .f32 0x00000000#32 :=
    (broadcastInDim_apply ![] bcast_S_S100000x16 (constant (F := Ideal) S_ .f32 0x00000000#32) (ix2 r q) ix0
      (fun a => a.elim0)).trans (constant_apply _ _)
  rw [biasRelu1_apply, maximumf_apply, addf_apply, hrow, hzero, h0, h1]

/-- Where the three windows sit at grid point t: the operand's and the result's block is block row t, block column
    0; the bias row's block is always block (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is rows 2000 t … 2000 t + 1999 of the larger of the operand plus the repeated bias
    row, and 0. -/
theorem flushed1 (c : Dev nD) (hb : S1x16.BroadcastsInDim S100000x16 (![0, 1] : Fin 2 → Fin S100000x16.rank)) (t : Fin cfg1.N) :
    (dat1 (F := Ideal) V c).flushed 2 t = ((cfg1.win 2).blk t).view.read (Elt Ideal)
      (maximumf (F := Ideal) (addf (F := Ideal) (V c main_v43 : FVec Ideal S100000x16 .f32) (broadcastInDim S100000x16 ![0, 1] hb (V c main_v44 : FVec Ideal S1x16 .f32)))
          (broadcastInDim S100000x16 ![] bcast_S_S100000x16 (constant (F := Ideal) S_ .f32 0x00000000#32))) := by
  show (cfg1.win 2).cut (grid1.coords t) ((dat1 V c).after 2 t) = _
  rw [after1_2]
  unfold out1_2
  rw [View.canon_unit_zero bias_zero_offsets]
  simp only [View.ld_unit_zero (S := S2000x16) bias_zero_offsets, View.ld_unit_zero (S := S1x16) bias_zero_offsets]
  obtain ⟨e00, e01, e10, e11, e20, e21⟩ := blockIdx1 t
  have ht : t.val < 50 := lt_of_lt_of_eq t.isLt N_1
  refine funext fun (j : S2000x16.Idx) => ?_
  obtain ⟨p, q, rfl⟩ : ∃ (p : Fin 2000) (q : Fin 16), j = ix2 p q := ⟨j 0, j 1, eq_ix2 j⟩
  have hp : p.val < 2000 := p.isLt
  have hout : ((cfg1.win 2).blk t).view.emb (ix2 p q) = (ix2 (⟨t.val * 2000 + p.val, by omega⟩ : Fin 100000) q : S100000x16.Idx) := by
    funext a; apply Fin.ext
    match a with
    | ⟨0, _⟩ => show win1_2.index t (0 : Fin 2) * 2000 + 1 * p.val = t.val * 2000 + p.val; omega
    | ⟨1, _⟩ => show win1_2.index t (1 : Fin 2) * 16 + 1 * q.val = q.val; omega
  have hin : ((cfg1.win 0).blk t).view.emb (ix2 p q) = (ix2 (⟨t.val * 2000 + p.val, by omega⟩ : Fin 100000) q : S100000x16.Idx) := by
    funext a; apply Fin.ext
    match a with
    | ⟨0, _⟩ => show win1_0.index t (0 : Fin 2) * 2000 + 1 * p.val = t.val * 2000 + p.val; omega
    | ⟨1, _⟩ => show win1_0.index t (1 : Fin 2) * 16 + 1 * q.val = q.val; omega
  have hrow : ((cfg1.win 1).blk t).view.emb (ix2 (0 : Fin 1) q) = (ix2 (0 : Fin 1) q : S1x16.Idx) := by
    funext a; apply Fin.ext
    match a with
    | ⟨0, _⟩ => show win1_1.index t (0 : Fin 2) * 1 + 1 * 0 = 0; omega
    | ⟨1, _⟩ => show win1_1.index t (1 : Fin 2) * 16 + 1 * q.val = q.val; omega
  show (k1_pay1 (F := Ideal) (iblk1 V c 0 t) (iblk1 V c 1 t) : FVec Ideal S2000x16 .f32) (ix2 p q)
    = (maximumf (F := Ideal) (addf (F := Ideal) (V c main_v43 : FVec Ideal S100000x16 .f32) (broadcastInDim S100000x16 ![0, 1] hb (V c main_v44 : FVec Ideal S1x16 .f32)))
          (broadcastInDim S100000x16 ![] bcast_S_S100000x16 (constant (F := Ideal) S_ .f32 0x00000000#32)))
        (((cfg1.win 2).blk t).view.emb (ix2 p q))
  rw [hout]
  refine biasRelu1_point _ _ hb (iblk1 V c 0 t) (iblk1 V c 1 t) p q _ ?_ ?_
  · show V c main_v43 (((cfg1.win 0).blk t).view.emb (ix2 p q)) = _
    rw [hin]
  · show V c main_v44 (((cfg1.win 1).blk t).view.emb (ix2 (0 : Fin 1) q)) = _
    rw [hrow]

/-- An entry of the result lies in grid point t's block exactly when its row and column lie in the block's ranges. -/
theorem mem_block1 (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v45).slice (win1_2.rect t)).set ↔ _
  rw [View.set_slice_whole, Rect.mem_set_unit]
  exact Iff.rfl

/-- Every entry of the result is written: row r lies in the block of grid point r / 2000. -/
theorem cover1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ : ∃ t : Fin cfg1.N, t.val = (i 0).val / 2000 :=
    ⟨⟨(i 0).val / 2000, lt_of_lt_of_eq (show (i 0).val / 2000 < 50 by omega) N_1.symm⟩, rfl⟩
  obtain ⟨-, -, -, -, e20, e21⟩ := blockIdx1 t
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 16 ≤ (i 1).val ∧ (i 1).val < win1_2.index t (1 : Fin 2) * 16 + 16; omega

/-! ## The two regions' result arrays -/

/-- Region 1: the array `main_v45` after the region is `max (main_v43 + row, 0)`, `row` the [1, 16] array `main_v44`
    repeated down the 100000 rows. -/
theorem region1 (c : Dev nD) (hb : S1x16.BroadcastsInDim S100000x16 (![0, 1] : Fin 2 → Fin S100000x16.rank)) :
    ((dat1 (F := Ideal) V c).arrAt 2 cfg1.N : FVec Ideal S100000x16 .f32)
      = maximumf (F := Ideal) (addf (F := Ideal) (V c main_v43 : FVec Ideal S100000x16 .f32) (broadcastInDim S100000x16 ![0, 1] hb (V c main_v44 : FVec Ideal S1x16 .f32)))
          (broadcastInDim S100000x16 ![] bcast_S_S100000x16 (constant (F := Ideal) S_ .f32 0x00000000#32)) := by
  exact (dat1 (F := Ideal) V c).arrAt_eq_of_cover 2 _ (fun t _ => flushed1 V c hb t) cover1

/-- Region 3: the array `main_v61` after the region is `main_v59 + row`, `row` the [1, 40] array `main_v60` repeated
    down the 100000 rows. -/
theorem region3 (c : Dev nD) (hb : S1x40.BroadcastsInDim S100000x40 (![0, 1] : Fin 2 → Fin S100000x40.rank)) :
    ((dat3 (F := Ideal) V c).arrAt 2 cfg3.N : FVec Ideal S100000x40 .f32)
      = addf (F := Ideal) (φ := .f32) (V c main_v59 : FVec Ideal S100000x40 .f32) (broadcastInDim S100000x40 ![0, 1] hb (V c main_v60 : FVec Ideal S1x40 .f32)) := by
  exact (dat3 (F := Ideal) V c).arrAt_eq_of_cover 2 _ (fun t _ => flushed3 V c hb t) cover3

end Cert.KernelIdeal.RegionValue

end
-- ==== Proof.GcnSpec.lean ====
/-
  The two-layer graph convolution as ONE function of the argument arrays, in the reference program's own
  operations, stage by stage.

  The graph has 100000 nodes and 3200000 edges, `ei` holding the sources in row 0 and the targets in row 1.
  Every node also gets a self loop, so the 3300000 messages run from `src ei` to `dst ei` (the edge ends
  followed by 0 … 99999). `deg` counts the messages arriving at each node, `dinv` is `deg^(-1/2)` where the
  count is positive and 0 elsewhere, and a message's weight `norm` is `dinv` at its source times `dinv` at its
  target. A negative end is read from the far end of the node axis (`wrap`), as array indexing does.
  One layer sends every node's feature row `h` along the messages, scaled by the message's weight, and adds up
  what arrives at each node (`agg16`, `agg40`); the network is
      out = agg40 (relu (agg16 (x · W1) + b1) · W2) + b2,
  the biases added to every row.
-/
import proofs.«124729_j309237645923_1_alg».proof.Proof.Gen.ReferenceIdeal

noncomputable section

namespace Cert.ReferenceIdeal.Gcn

open Cert.ReferenceIdeal Cert.ReferenceIdeal.Gen Idealize.ShloMosaic Idealize.ShloMosaic.TcCoe

variable {F : FTy → Type} [FloatOps F]

/-- The sources of the messages: row 0 of the edge list, then every node once (its self loop). -/
def src (ei : (⟨S2x3200000, .i32⟩ : BufTy).Contents (Elt F)) : (⟨S3300000, .i32⟩ : BufTy).Contents (Elt F) :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The targets of the messages: row 1 of the edge list, then every node once. -/
def dst (ei : (⟨S2x3200000, .i32⟩ : BufTy).Contents (Elt F)) : (⟨S3300000, .i32⟩ : BufTy).Contents (Elt F) :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- A negative node number counts from the far end of the node axis. -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32))) (addi v (broadcastInDim S3300000 ![] bcast_S_S3300000 (constantI S_ 32 100000#32))) v

/-- The number of messages arriving at each node: ones added up by target. -/
def deg (ei : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (dst ei)) (broadcastInDim S3300000 ![] bcast_S_S3300000 (constant S_ .f32 0x3F800000#32))

/-- `deg^(-1/2)` where the count is positive, 0 elsewhere. -/
def dinv (ei : (⟨S2x3200000, .i32⟩ : BufTy).Contents (Elt F)) : (⟨S100000, .f32⟩ : BufTy).Contents (Elt F) :=
  select (cmpf (F := F) .ogt (deg ei) (broadcastInDim S100000 ![] bcast_S_S100000 (constant S_ .f32 0x00000000#32))) (Host.rsqrt (deg ei)) (broadcastInDim S100000 ![] bcast_S_S100000 (id (constant S_ .f32 0x00000000#32)))

/-- A message's weight: `dinv` at its source times `dinv` at its target. -/
def norm (ei : (⟨S2x3200000, .i32⟩ : BufTy).Contents (Elt F)) : (⟨S3300000, .f32⟩ : BufTy).Contents (Elt F) :=
  mulf (Host.gather gather_S100000_S3300000x1_S3300000_n_0_n_n_0_1_1 (dinv ei) (broadcastInDim S3300000x1 ![0] bcast_S3300000_S3300000x1_0 (wrap (src ei)))) (Host.gather gather_S100000_S3300000x1_S3300000_n_0_n_n_0_1_1 (dinv ei) (broadcastInDim S3300000x1 ![0] bcast_S3300000_S3300000x1_0 (wrap (dst ei))))

/-- One round of message passing on rows of 16 features: each message carries its source's row times its weight,
    and a node ends with the sum of the messages it receives. -/
def agg16 (h : (⟨S100000x16, .f32⟩ : BufTy).Contents (Elt F)) (ei : (⟨S2x3200000, .i32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (dst ei)) (mulf (Host.gather gather_S100000x16_S3300000x1_S3300000x16_1_0_n_n_0_1_116 h (broadcastInDim S3300000x1 ![0] bcast_S3300000_S3300000x1_0 (wrap (src ei)))) (broadcastInDim S3300000x16 ![0, 1] bcast_S3300000x1_S3300000x16_0_1 (broadcastInDim S3300000x1 ![0] bcast_S3300000_S3300000x1_0 (norm ei))))

/-- The same round on rows of 40 features. -/
def agg40 (h : (⟨S100000x40, .f32⟩ : BufTy).Contents (Elt F)) (ei : (⟨S2x3200000, .i32⟩ : BufTy).Contents (Elt F)) : (⟨S100000x40, .f32⟩ : BufTy).Contents (Elt F) :=
  Host.scatterAdd scatter_S100000x40_S3300000x1_S3300000x40_1_0_0_1 (broadcastInDim S100000x40 ![] bcast_S_S100000x40 (constant S_ .f32 0x00000000#32)) (broadcastInDim S3300000x1 ![0] bcast_S3300000_S3300000x1_0 (dst ei)) (mulf (Host.gather gather_S100000x40_S3300000x1_S3300000x40_1_0_n_n_0_1_140 h (broadcastInDim S3300000x1 ![0] bcast_S3300000_S3300000x1_0 (wrap (src ei)))) (broadcastInDim S3300000x40 ![0, 1] bcast_S3300000x1_S3300000x40_0_1 (broadcastInDim S3300000x1 ![0] bcast_S3300000_S3300000x1_0 (norm ei))))

/-- The hidden layer: the aggregated rows plus the bias row, negative entries replaced by 0. -/
def hidden (a : (⟨S100000x16, .f32⟩ : BufTy).Contents (Elt F)) (b1 : (⟨S16, .f32⟩ : BufTy).Contents (Elt F)) : (⟨S100000x16, .f32⟩ : BufTy).Contents (Elt F) :=
  maximumf (addf a (broadcastInDim S100000x16 ![0, 1] bcast_S1x16_S100000x16_0_1 (broadcastInDim S1x16 ![1] bcast_S16_S1x16_1 b1))) (broadcastInDim S100000x16 ![] bcast_S_S100000x16 (constant S_ .f32 0x00000000#32))

/-- The output layer: the aggregated rows plus the bias row. -/
def biased40 (a : (⟨S100000x40, .f32⟩ : BufTy).Contents (Elt F)) (b2 : (⟨S40, .f32⟩ : BufTy).Contents (Elt F)) : (⟨S100000x40, .f32⟩ : BufTy).Contents (Elt F) :=
  addf a (broadcastInDim S100000x40 ![0, 1] bcast_S1x40_S100000x40_0_1 (broadcastInDim S1x40 ![1] bcast_S40_S1x40_1 b2))

/-- The network. -/
def out (x : (⟨S100000x512, .f32⟩ : BufTy).Contents (Elt F)) (ei : (⟨S2x3200000, .i32⟩ : BufTy).Contents (Elt F))
    (w1 : (⟨S512x16, .f32⟩ : BufTy).Contents (Elt F)) (b1 : (⟨S16, .f32⟩ : BufTy).Contents (Elt F))
    (w2 : (⟨S16x40, .f32⟩ : BufTy).Contents (Elt F)) (b2 : (⟨S40, .f32⟩ : BufTy).Contents (Elt F)) : (⟨S100000x40, .f32⟩ : BufTy).Contents (Elt F) :=
  biased40 (agg40 (Host.dotGeneral dot_S100000x16_S16x40_S100000x40_1_0_0_1_n_n none
    (hidden (agg16 (Host.dotGeneral dot_S100000x512_S512x16_S100000x16_1_0_0_1_n_n none x w1) ei) b1) w2) ei) b2

end Cert.ReferenceIdeal.Gcn

end
-- ==== Proof.LibRowOfVector.lean ====
/-
  A vector laid out as the one row of a two-dimensional array.

  A vector of `n` entries becomes a [1, n] array either by a reshape, which keeps the entries in their order, or by a
  broadcast that sends the vector's axis to the array's second axis. Both arrays hold the vector's entry `q` at
  (0, q), so they are equal. The statement is for `n ≠ 1`: the broadcast then reads the vector at the array's
  second coordinate, with no axis of extent 1 to treat apart.
-/
import Idealize.ShloMosaic.Lib.Pipeline.Value
import Idealize.ShloMosaic.Lib.ValueIdx

noncomputable section

namespace Cert.RowOfVector

open Idealize.ShloMosaic

/-- Laying a vector of `n` entries out as the one row of a [1, n] array by a reshape, and by a broadcast that sends the
    vector's axis to the array's second axis, give the same array: entry (0, q) is the vector's entry q. -/
theorem reshape_eq_broadcast {α : Type} {n : ℕ} (hn : n ≠ 1) (b : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ (![1] : Fin 1 → Fin 2)) :
    shapeCast ⟨2, ![1, n]⟩ b h1 = broadcastInDim ⟨2, ![1, n]⟩ ![1] h2 b := by
  funext j
  have e1 : shapeCast ⟨2, ![1, n]⟩ b h1 j = b (fun a => j a.succ) :=
    shapeCast_addUnit_apply (n := 1) ![n] b h1 j
  have e2 : broadcastInDim ⟨2, ![1, n]⟩ ![1] h2 b j = b (fun a => j a.succ) :=
    broadcastInDim_apply ![1] h2 b j (fun a => j a.succ) (fun a => by
      match a with
      | ⟨0, _⟩ =>
        show (j 1).val = if n = 1 then 0 else (j 1).val
        rw [if_neg hn])
  rw [e1, e2]

end Cert.RowOfVector

end
-- ==== Proof.KValue.lean ====
/-
  The kernel program's result, read region by region.

  Between the launch and the return the program's buffers change at nine boundaries: three stretches of host
  operations, the first region, a stretch, the second and the third region, a stretch, the fourth region. The
  contents at each boundary are a function of the contents at the one before: a host stretch applies its operations,
  a region replaces its result array by the whole-array operation of its operand arrays and leaves every other
  buffer alone. Walking this chain from the launch memory:

  * the first three stretches leave the messages' sources, targets and weights (`Gcn.src`, `Gcn.dst`, `Gcn.norm` of
    the edge list), which no later item writes, and do not touch the arguments;
  * the first region leaves x · W1; the next stretch passes it along the messages (`Gcn.agg16`) and lays the
    first bias out as a row;
  * the second region leaves the hidden layer, the third its product with W2; the next stretch passes that along
    the messages (`Gcn.agg40`) and lays the second bias out as a row;
  * the fourth region adds that row: the result array holds `Gcn.out` of the six arguments.

  The statements about host stretches hold for any float family and are stated so; only the regions' values are
  facts about the ideal values.
-/
import proofs.«124729_j309237645923_1_alg».proof.Proof.Gen.KernelIdeal.Frame
import proofs.«124729_j309237645923_1_alg».proof.Proof.RegionMatmul
import proofs.«124729_j309237645923_1_alg».proof.Proof.RegionBias
import proofs.«124729_j309237645923_1_alg».proof.Proof.GcnSpec
import Idealize.ShloMosaic.Lib.StableHlo.Run
import Idealize.ShloMosaic.Lib.Pipeline.Value
import proofs.«124729_j309237645923_1_alg».proof.Proof.LibRowOfVector

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Cert.ReferenceIdeal (Gcn.src Gcn.dst Gcn.norm Gcn.agg16 Gcn.agg40 Gcn.hidden Gcn.biased40 Gcn.out)

section Host
variable {F : FTy → Type} [FloatOps F] (m : (ℓ : Loc nD τ sig) → Buf (Elt F) ℓ) (ρ : Dev nD → PrngReg)

/-! ## What the host operations before the first region leave (generic in the float family) -/

/-- The messages' sources. -/
theorem src_at3 (c : Dev nD) :
    W3 m ρ c (Proc.devRef .tc main_v3) = Cert.ReferenceIdeal.Gcn.src (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results_simp
  rfl

/-- The messages' targets. -/
theorem dst_at3 (c : Dev nD) :
    W3 m ρ c (Proc.devRef .tc main_v6) = Cert.ReferenceIdeal.Gcn.dst (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results_simp
  rfl

/-- The messages' weights. -/
theorem norm_at3 (c : Dev nD) :
    W3 m ρ c (Proc.devRef .tc main_v29) = Cert.ReferenceIdeal.Gcn.norm (m ((c : Thread nD τ).loc main_arg1)) := by
  show StableHlo.after hostOps0_2 (StableHlo.after hostOps0_1 (StableHlo.after hostOps0 (W0 m ρ c))) (Proc.devRef .tc main_v29) = _
  dsimp only [hostOps0, hostOps0_1, hostOps0_2]
  after_results_simp
  rfl

/-- No host operation before the first region writes an argument. -/
theorem arg_at3 (c : Dev nD) (b : Ref sig .tc)
    (hb : b = main_arg0 ∨ b = main_arg2 ∨ b = main_arg3 ∨ b = main_arg4 ∨ b = main_arg5) :
    W3 m ρ c (Proc.devRef .tc b) = m ((c : Thread nD τ).loc b) := by
  show StableHlo.after hostOps0_2 (StableHlo.after hostOps0_1 (StableHlo.after hostOps0 (W0 m ρ c))) (Proc.devRef .tc b) = _
  dsimp only [hostOps0, hostOps0_1, hostOps0_2]
  rcases hb with rfl | rfl | rfl | rfl | rfl <;> after_results_simp

/-! ## Kept across the first region -/

theorem src_at4 (c : Dev nD) : W4 m ρ c (Proc.devRef .tc main_v3) = Cert.ReferenceIdeal.Gcn.src (m ((c : Thread nD τ).loc main_arg1)) :=
  (W4_of_ne m ρ c main_v3 (by decide)).trans (src_at3 m ρ c)
theorem dst_at4 (c : Dev nD) : W4 m ρ c (Proc.devRef .tc main_v6) = Cert.ReferenceIdeal.Gcn.dst (m ((c : Thread nD τ).loc main_arg1)) :=
  (W4_of_ne m ρ c main_v6 (by decide)).trans (dst_at3 m ρ c)
theorem norm_at4 (c : Dev nD) : W4 m ρ c (Proc.devRef .tc main_v29) = Cert.ReferenceIdeal.Gcn.norm (m ((c : Thread nD τ).loc main_arg1)) :=
  (W4_of_ne m ρ c main_v29 (by decide)).trans (norm_at3 m ρ c)
theorem arg3_at4 (c : Dev nD) : W4 m ρ c (Proc.devRef .tc main_arg3) = m ((c : Thread nD τ).loc main_arg3) :=
  (W4_of_ne m ρ c main_arg3 (by decide)).trans (arg_at3 m ρ c main_arg3 (by simp))
theorem arg4_at4 (c : Dev nD) : W4 m ρ c (Proc.devRef .tc main_arg4) = m ((c : Thread nD τ).loc main_arg4) :=
  (W4_of_ne m ρ c main_arg4 (by decide)).trans (arg_at3 m ρ c main_arg4 (by simp))
theorem arg5_at4 (c : Dev nD) : W4 m ρ c (Proc.devRef .tc main_arg5) = m ((c : Thread nD τ).loc main_arg5) :=
  (W4_of_ne m ρ c main_arg5 (by decide)).trans (arg_at3 m ρ c main_arg5 (by simp))

/-! ## The host operations between the first and the second region: one round of message passing -/

/-- From the first region's product `h`, the aggregated rows. -/
theorem agg16_at5 (c : Dev nD) (h : Buf (Elt F) ((c : Thread nD τ).loc main_v30))
    (hh : W4 m ρ c (Proc.devRef .tc main_v30) = h) :
    W5 m ρ c (Proc.devRef .tc main_v43) = Cert.ReferenceIdeal.Gcn.agg16 h (m ((c : Thread nD τ).loc main_arg1)) := by
  show StableHlo.after hostOps1 (W4 m ρ c) (Proc.devRef .tc main_v43) = _
  dsimp only [hostOps1]
  after_results_simp
  rw [hh, src_at4, dst_at4, norm_at4]
  rfl

/-- The first bias as a row. -/
theorem brow16_at5 (c : Dev nD) :
    W5 m ρ c (Proc.devRef .tc main_v44) = shapeCast S1x16 (m ((c : Thread nD τ).loc main_arg3)) shapeCasts_S16_S1x16 := by
  show StableHlo.after hostOps1 (W4 m ρ c) (Proc.devRef .tc main_v44) = _
  dsimp only [hostOps1]
  after_results_simp
  rw [arg3_at4]
  rfl

theorem src_at5 (c : Dev nD) : W5 m ρ c (Proc.devRef .tc main_v3) = Cert.ReferenceIdeal.Gcn.src (m ((c : Thread nD τ).loc main_arg1)) := by
  show StableHlo.after hostOps1 (W4 m ρ c) (Proc.devRef .tc main_v3) = _
  dsimp only [hostOps1]; after_results_simp; exact src_at4 m ρ c
theorem dst_at5 (c : Dev nD) : W5 m ρ c (Proc.devRef .tc main_v6) = Cert.ReferenceIdeal.Gcn.dst (m ((c : Thread nD τ).loc main_arg1)) := by
  show StableHlo.after hostOps1 (W4 m ρ c) (Proc.devRef .tc main_v6) = _
  dsimp only [hostOps1]; after_results_simp; exact dst_at4 m ρ c
theorem norm_at5 (c : Dev nD) : W5 m ρ c (Proc.devRef .tc main_v29) = Cert.ReferenceIdeal.Gcn.norm (m ((c : Thread nD τ).loc main_arg1)) := by
  show StableHlo.after hostOps1 (W4 m ρ c) (Proc.devRef .tc main_v29) = _
  dsimp only [hostOps1]; after_results_simp; exact norm_at4 m ρ c
theorem arg4_at5 (c : Dev nD) : W5 m ρ c (Proc.devRef .tc main_arg4) = m ((c : Thread nD τ).loc main_arg4) := by
  show StableHlo.after hostOps1 (W4 m ρ c) (Proc.devRef .tc main_arg4) = _
  dsimp only [hostOps1]; after_results_simp; exact arg4_at4 m ρ c
theorem arg5_at5 (c : Dev nD) : W5 m ρ c (Proc.devRef .tc main_arg5) = m ((c : Thread nD τ).loc main_arg5) := by
  show StableHlo.after hostOps1 (W4 m ρ c) (Proc.devRef .tc main_arg5) = _
  dsimp only [hostOps1]; after_results_simp; exact arg5_at4 m ρ c

/-! ## Kept across the second and the third region -/

theorem src_at7 (c : Dev nD) : W7 m ρ c (Proc.devRef .tc main_v3) = Cert.ReferenceIdeal.Gcn.src (m ((c : Thread nD τ).loc main_arg1)) :=
  (W7_of_ne m ρ c main_v3 (by decide)).trans ((W6_of_ne m ρ c main_v3 (by decide)).trans (src_at5 m ρ c))
theorem dst_at7 (c : Dev nD) : W7 m ρ c (Proc.devRef .tc main_v6) = Cert.ReferenceIdeal.Gcn.dst (m ((c : Thread nD τ).loc main_arg1)) :=
  (W7_of_ne m ρ c main_v6 (by decide)).trans ((W6_of_ne m ρ c main_v6 (by decide)).trans (dst_at5 m ρ c))
theorem norm_at7 (c : Dev nD) : W7 m ρ c (Proc.devRef .tc main_v29) = Cert.ReferenceIdeal.Gcn.norm (m ((c : Thread nD τ).loc main_arg1)) :=
  (W7_of_ne m ρ c main_v29 (by decide)).trans ((W6_of_ne m ρ c main_v29 (by decide)).trans (norm_at5 m ρ c))
theorem arg4_at6 (c : Dev nD) : W6 m ρ c (Proc.devRef .tc main_arg4) = m ((c : Thread nD τ).loc main_arg4) :=
  (W6_of_ne m ρ c main_arg4 (by decide)).trans (arg4_at5 m ρ c)
theorem arg5_at7 (c : Dev nD) : W7 m ρ c (Proc.devRef .tc main_arg5) = m ((c : Thread nD τ).loc main_arg5) :=
  (W7_of_ne m ρ c main_arg5 (by decide)).trans ((W6_of_ne m ρ c main_arg5 (by decide)).trans (arg5_at5 m ρ c))

/-! ## The host operations between the third and the fourth region: the second round of message passing -/

/-- From the third region's product `h`, the aggregated rows. -/
theorem agg40_at8 (c : Dev nD) (h : Buf (Elt F) ((c : Thread nD τ).loc main_v46))
    (hh : W7 m ρ c (Proc.devRef .tc main_v46) = h) :
    W8 m ρ c (Proc.devRef .tc main_v59) = Cert.ReferenceIdeal.Gcn.agg40 h (m ((c : Thread nD τ).loc main_arg1)) := by
  show StableHlo.after hostOps3 (W7 m ρ c) (Proc.devRef .tc main_v59) = _
  dsimp only [hostOps3]
  after_results_simp
  rw [hh, src_at7, dst_at7, norm_at7]
  rfl

/-- The second bias as a row. -/
theorem brow40_at8 (c : Dev nD) :
    W8 m ρ c (Proc.devRef .tc main_v60) = shapeCast S1x40 (m ((c : Thread nD τ).loc main_arg5)) shapeCasts_S40_S1x40 := by
  show StableHlo.after hostOps3 (W7 m ρ c) (Proc.devRef .tc main_v60) = _
  dsimp only [hostOps3]
  after_results_simp
  rw [arg5_at7]
  rfl

end Host

/-! ## The four regions, at the ideal values -/

section AtIdeal

variable (m : (ℓ : Loc nD τ sig) → Buf (Elt Ideal) ℓ) (ρ : Dev nD → PrngReg)

/-- The plain product's record is the one the reference's first `dot_general` carries. -/
theorem dot1_plain : Cert.ReferenceIdeal.dot_S100000x512_S512x16_S100000x16_1_0_0_1_n_n = DotDims.plain 100000 512 16 := rfl
/-- The plain product's record is the one the reference's second `dot_general` carries. -/
theorem dot2_plain : Cert.ReferenceIdeal.dot_S100000x16_S16x40_S100000x40_1_0_0_1_n_n = DotDims.plain 100000 16 40 := rfl

/-- After the first region: the features times the first weight matrix. -/
theorem prod1_at4 (c : Dev nD) :
    W4 m ρ c (Proc.devRef .tc main_v30)
      = Host.dotGeneral (F := Ideal) (φ₁ := .f32) (φ₂ := .f32) Cert.ReferenceIdeal.dot_S100000x512_S512x16_S100000x16_1_0_0_1_n_n none
          (m ((c : Thread nD τ).loc main_arg0)) (m ((c : Thread nD τ).loc main_arg2)) := by
  have e := RegionValue.region0 (V3 m ρ) c
  have a0 : V3 m ρ c main_arg0 = m ((c : Thread nD τ).loc main_arg0) := arg_at3 m ρ c main_arg0 (by simp)
  have a2 : V3 m ρ c main_arg2 = m ((c : Thread nD τ).loc main_arg2) := arg_at3 m ρ c main_arg2 (by simp)
  rw [a0, a2] at e
  rw [dot1_plain]
  exact (W4_arr m ρ c 2).trans e

/-- After the second region: the hidden layer. -/
theorem hidden_at6 (c : Dev nD) :
    W6 m ρ c (Proc.devRef .tc main_v45)
      = Cert.ReferenceIdeal.Gcn.hidden
          (Cert.ReferenceIdeal.Gcn.agg16
            (Host.dotGeneral (F := Ideal) (φ₁ := .f32) (φ₂ := .f32) Cert.ReferenceIdeal.dot_S100000x512_S512x16_S100000x16_1_0_0_1_n_n none
              (m ((c : Thread nD τ).loc main_arg0)) (m ((c : Thread nD τ).loc main_arg2)))
            (m ((c : Thread nD τ).loc main_arg1)))
          (m ((c : Thread nD τ).loc main_arg3)) := by
  have e := RegionValue.region1 (V5 m ρ) c Cert.ReferenceIdeal.Gen.bcast_S1x16_S100000x16_0_1
  have a : V5 m ρ c main_v43 = _ := agg16_at5 m ρ c _ (prod1_at4 m ρ c)
  have b : V5 m ρ c main_v44 = _ := brow16_at5 m ρ c
  rw [a, b, Cert.RowOfVector.reshape_eq_broadcast (n := 16) (by decide) _ _ Cert.ReferenceIdeal.Gen.bcast_S16_S1x16_1] at e
  exact (W6_arr m ρ c 2).trans e

/-- After the third region: the hidden layer times the second weight matrix. -/
theorem prod2_at7 (c : Dev nD) :
    W7 m ρ c (Proc.devRef .tc main_v46)
      = Host.dotGeneral (F := Ideal) (φ₁ := .f32) (φ₂ := .f32) Cert.ReferenceIdeal.dot_S100000x16_S16x40_S100000x40_1_0_0_1_n_n none
          (Cert.ReferenceIdeal.Gcn.hidden
            (Cert.ReferenceIdeal.Gcn.agg16
              (Host.dotGeneral (F := Ideal) (φ₁ := .f32) (φ₂ := .f32) Cert.ReferenceIdeal.dot_S100000x512_S512x16_S100000x16_1_0_0_1_n_n none
                (m ((c : Thread nD τ).loc main_arg0)) (m ((c : Thread nD τ).loc main_arg2)))
              (m ((c : Thread nD τ).loc main_arg1)))
            (m ((c : Thread nD τ).loc main_arg3)))
          (m ((c : Thread nD τ).loc main_arg4)) := by
  have e := RegionValue.region2 (V6 m ρ) c
  have a : V6 m ρ c main_v45 = _ := hidden_at6 m ρ c
  have b : V6 m ρ c main_arg4 = m ((c : Thread nD τ).loc main_arg4) := arg4_at6 m ρ c
  rw [a, b] at e
  rw [dot2_plain]
  exact (W7_arr m ρ c 2).trans e

/-- After the fourth region: the network's value. -/
theorem out_eq (c : Dev nD) :
    W9 m ρ c (Proc.devRef .tc main_v61)
      = Cert.ReferenceIdeal.Gcn.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e := RegionValue.region3 (V8 m ρ) c Cert.ReferenceIdeal.Gen.bcast_S1x40_S100000x40_0_1
  have a : V8 m ρ c main_v59 = _ := agg40_at8 m ρ c _ (prod2_at7 m ρ c)
  have b : V8 m ρ c main_v60 = _ := brow40_at8 m ρ c
  rw [a, b, Cert.RowOfVector.reshape_eq_broadcast (n := 40) (by decide) _ _ Cert.ReferenceIdeal.Gen.bcast_S40_S1x40_1] at e
  exact (W9_arr m ρ c 2).trans e

end AtIdeal

end Cert.KernelIdeal.KValue

end
-- ==== Proof.RefValue.lean ====
/-
  The reference's run ends with the network's value: the term its operations compose from the argument arrays is
  `Gcn.out` of them, stage by stage the same operations (the weights of the messages, computed once per layer
  by the reference, are one term).
-/
import proofs.«124729_j309237645923_1_alg».proof.Proof.GcnSpec
import proofs.«124729_j309237645923_1_alg».proof.Proof.RefRun

noncomputable section

namespace Cert.ReferenceIdeal.Gcn

open Cert.ReferenceIdeal Cert.ReferenceIdeal.Gen Idealize.ShloMosaic Idealize.ShloMosaic.TcCoe Idealize.SL.Sem

variable {F : FTy → Type} [FloatOps F]

set_option maxRecDepth 16384 in
/-- The composed term of the reference's operations is the network of its argument arrays. -/
theorem res_eq (m : (ℓ : Loc nD τ sig) → Buf (Elt F) ℓ) (c : Dev nD) :
    Cert.ReferenceIdeal.RefRun.res_main_v94 m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RefRun.res_main_v94 out biased40 hidden agg40 agg16 norm dinv deg wrap dst src
  rfl

end Cert.ReferenceIdeal.Gcn

end
-- ==== Proof.lean ====
/-
  The certificate of a two-layer graph convolution: the kernel program and its reference compute the same array
  over the extended reals.

  Both programs pass messages along the 3200000 edges and 100000 self loops of a graph, each message its source's
  feature row scaled by deg(source)^(-1/2) · deg(target)^(-1/2), and add up what arrives at each node; between the
  two rounds the rows are multiplied by a weight matrix, shifted by a bias row and, after the first round, cut off
  below at 0 (Proof/GcnSpec.lean states this as one function `Gcn.out` of the six argument arrays). The weights
  of the messages, the gathers and the scatter-adds are the same host operations in both programs. They differ in
  the dense steps only: the kernel runs each matrix product and each bias step as a grid of 50 blocks of 2000 rows,
  the products through a narrower float format that is the identity at the ideal values; the reference applies
  one `dot_general`, one broadcast sum and one maximum to the whole arrays.

  * Proof/RegionMatmul.lean, Proof/RegionBias.lean: each of the kernel's four regions leaves in its result array,
    whatever it is entered with, the whole-array operation of its operand arrays (the blocks tile the rows; a block's
    product is the plain sum over the contracted axis, Proof/LibPlainDot.lean).
  * Proof/KValue.lean: the kernel program's contents region by region, from the launch memory to the result:
    `Gcn.out` of the arguments (a bias reshaped to a row is the bias broadcast to a row, Proof/LibRowOfVector.lean).
  * Proof/KRun.lean: the kernel program's run with its result array named.
  * Proof/RefRun.lean, Proof/RefValue.lean: the reference's run, and that the term its operations compose is `Gcn.out`
    of the arguments.

  The three frames: the two kernel programs' are the launch of their regions among the host operations; the
  reference's is its run with the result dropped. The kernel program is idealized with no rewrite, so nothing is
  owed for it. The value claim never opens the precondition: no law used needs a finite operand.
-/
import proofs.«124729_j309237645923_1_alg».proof.Defs
import proofs.«124729_j309237645923_1_alg».proof.Proof.Gen.Kernel
import proofs.«124729_j309237645923_1_alg».proof.Proof.Gen.Kernel.Skeleton
import proofs.«124729_j309237645923_1_alg».proof.Proof.Gen.Kernel.Launch
import proofs.«124729_j309237645923_1_alg».proof.Proof.Gen.Kernel.Points
import proofs.«124729_j309237645923_1_alg».proof.Proof.Gen.Kernel.Frame
import proofs.«124729_j309237645923_1_alg».proof.Proof.Gen.KernelIdeal
import proofs.«124729_j309237645923_1_alg».proof.Proof.Gen.KernelIdeal.Skeleton
import proofs.«124729_j309237645923_1_alg».proof.Proof.Gen.KernelIdeal.Launch
import proofs.«124729_j309237645923_1_alg».proof.Proof.Gen.KernelIdeal.Points
import proofs.«124729_j309237645923_1_alg».proof.Proof.Gen.KernelIdeal.Frame
import proofs.«124729_j309237645923_1_alg».proof.Proof.Gen.ReferenceIdeal
import proofs.«124729_j309237645923_1_alg».proof.Proof.Gen.Pre_finite_inputs
import proofs.«124729_j309237645923_1_alg».proof.Proof.KRun
import proofs.«124729_j309237645923_1_alg».proof.Proof.KValue
import proofs.«124729_j309237645923_1_alg».proof.Proof.RefRun
import proofs.«124729_j309237645923_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- From memories that agree on the six arguments both programs end with the network's value of those arguments. -/
theorem algebraic : Cert.algebraic_KernelIdeal_ReferenceIdeal := by
  intro m ρ m' ρ' _ hagree
  refine ⟨fun c => Cert.KernelIdeal.Gen.W9 m ρ c (Proc.devRef .tc Cert.KernelIdeal.main_v61),
    Cert.KernelIdeal.KRun.run_out m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.Gcn.res_eq, (hagree c).1, (hagree c).2.1, (hagree c).2.2.1, (hagree c).2.2.2.1,
    (hagree c).2.2.2.2.1, (hagree c).2.2.2.2.2]
  exact (Cert.KernelIdeal.KValue.out_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
